-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x256 .f32) (main_arg8 : FVec F S128 .f32) (main_arg9 : FVec F S128x256 .f32) (main_arg10 : FVec F S128 .f32) (main_arg11 : FVec F S128x128 .f32) (main_arg12 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x128 .f32) (main_arg1 : FVec F S131072x128 .f32) (main_arg2 : FVec F S131072x128 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_v13 main_v16
-- ==== Kernel.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S512x256 : Shape := ⟨2, ![512, 256]⟩
abbrev S512 : Shape := ⟨1, ![512]⟩
abbrev S256x512 : Shape := ⟨2, ![256, 512]⟩
abbrev S1x512 : Shape := ⟨2, ![1, 512]⟩
abbrev S1x128 : Shape := ⟨2, ![1, 128]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 24
  | .vmem => 16
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S512x256, .f32⟩
  | .hbm, ⟨14, _⟩ => ⟨S512, .f32⟩
  | .hbm, ⟨15, _⟩ => ⟨S256x512, .f32⟩
  | .hbm, ⟨16, _⟩ => ⟨S256x512, .bf16⟩
  | .hbm, ⟨17, _⟩ => ⟨S128x128, .f32⟩
  | .hbm, ⟨18, _⟩ => ⟨S128x128, .bf16⟩
  | .hbm, ⟨19, _⟩ => ⟨S1x512, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .bf16⟩
  | .local _ .vmem, ⟨7, _⟩ => ⟨S1x512, .f32⟩
  | .local _ .vmem, ⟨8, _⟩ => ⟨S128x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bitsLt_bf16_f32 : FTy.bits .bf16 < FTy.bits .f32
  transposes_S128x128_S128x128_1_0 : S128x128.Transposes [1, 0] S128x128
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x256_S256x512_S2048x512_1_0_0_1_n_n_wf : DotDims.WF S2048x256 S256x512 S2048x512 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S131072x128.size a
  hwx0_8 : ∀ i : grid0.Coords, EltTy.bits .f32 = 32 ∨ (Rect.block (s := S131072x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S131072x128.size a
  hwx0_9 : ∀ i : grid0.Coords, EltTy.bits .f32 = 32 ∨ (Rect.block (s := S131072x128) S2048x128.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S131072x512 : Shape := ⟨2, ![131072, 512]⟩
abbrev S1x512 : Shape := ⟨2, ![1, 512]⟩
abbrev S_ : Shape := ⟨0, ![]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S131072x256, .f32⟩
  | .hbm, ⟨14, _⟩ => ⟨S512x256, .f32⟩
  | .hbm, ⟨15, _⟩ => ⟨S512, .f32⟩
  | .hbm, ⟨16, _⟩ => ⟨S256x512, .f32⟩
  | .hbm, ⟨17, _⟩ => ⟨S131072x512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S128x128, .f32⟩
  | .hbm, ⟨56, _⟩ => ⟨S131072x128, .f32⟩
  | .hbm, ⟨57, _⟩ => ⟨S1x128, .f32⟩
  | .hbm, ⟨58, _⟩ => ⟨S131072x128, .f32⟩
  | .hbm, ⟨59, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  transposes_S128x128_S128x128_1_0 : S128x128.Transposes [1, 0] S128x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  dot_S131072x256_S256x512_S131072x512_1_0_0_1_n_n_wf : DotDims.WF S131072x256 S256x512 S131072x512 [1] [0] [0] [1] [] []
  dot_S131072x128_S128x128_S131072x128_1_0_0_1_n_n_wf : DotDims.WF S131072x128 S128x128 S131072x128 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.CellFrameBits.lean ====
/-
  The LSTM cell's program runs to its end, faults nowhere and leaves its thirteen argument arrays as they were; and
  what its three result arrays hold afterwards is named.

  @main first builds, on the host, the fused gate weights (the four gate matrices stacked, transposed, narrowed) the
  fused gate bias (the four biases stacked, as one row), the output weights (transposed, narrowed) and the output bias
  (as one row); it writes none of its arguments. The region then walks 64 grid points; at point t the body is handed
  rows 2048·t … 2048·t + 2047 of x, of the hidden state and of the cell state, and the four small arrays whole, and it
  stores three whole 2048 × 128 blocks: the output rows, the new hidden rows and the new cell rows. Each stored block
  is ONE pure function of the seven blocks read, so the proof data are exact: after point t an input's staging buffer
  still holds its block and each output's holds that function of the input blocks. The region needs nothing but its
  staging buffers, so its invariant is the class's (the scoped rest and the generator register, untouched).
-/
import proofs.«157820_j57844619543162_1_alg».proof.Proof.Gen.Kernel.Launch
import proofs.«157820_j57844619543162_1_alg».proof.Proof.Gen.Kernel.Skeleton
import proofs.«157820_j57844619543162_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the eight host operations. -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight the host operations write is found by the region as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_kept m c _ (by decide) (by decide) (by decide) (by decide) (by decide) (by decide) (by decide) (by decide)
theorem V_main_arg1 (c : Dev nD) : V m c main_arg1 = m ((c : Thread nD τ).loc main_arg1) :=
  V_kept m c _ (by decide) (by decide) (by decide) (by decide) (by decide) (by decide) (by decide) (by decide)
theorem V_main_arg2 (c : Dev nD) : V m c main_arg2 = m ((c : Thread nD τ).loc main_arg2) :=
  V_kept m c _ (by decide) (by decide) (by decide) (by decide) (by decide) (by decide) (by decide) (by decide)
theorem V_main_arg3 (c : Dev nD) : V m c main_arg3 = m ((c : Thread nD τ).loc main_arg3) :=
  V_kept m c _ (by decide) (by decide) (by decide) (by decide) (by decide) (by decide) (by decide) (by decide)
theorem V_main_arg4 (c : Dev nD) : V m c main_arg4 = m ((c : Thread nD τ).loc main_arg4) :=
  V_kept m c _ (by decide) (by decide) (by decide) (by decide) (by decide) (by decide) (by decide) (by decide)
theorem V_main_arg5 (c : Dev nD) : V m c main_arg5 = m ((c : Thread nD τ).loc main_arg5) :=
  V_kept m c _ (by decide) (by decide) (by decide) (by decide) (by decide) (by decide) (by decide) (by decide)
theorem V_main_arg6 (c : Dev nD) : V m c main_arg6 = m ((c : Thread nD τ).loc main_arg6) :=
  V_kept m c _ (by decide) (by decide) (by decide) (by decide) (by decide) (by decide) (by decide) (by decide)
theorem V_main_arg7 (c : Dev nD) : V m c main_arg7 = m ((c : Thread nD τ).loc main_arg7) :=
  V_kept m c _ (by decide) (by decide) (by decide) (by decide) (by decide) (by decide) (by decide) (by decide)
theorem V_main_arg8 (c : Dev nD) : V m c main_arg8 = m ((c : Thread nD τ).loc main_arg8) :=
  V_kept m c _ (by decide) (by decide) (by decide) (by decide) (by decide) (by decide) (by decide) (by decide)
theorem V_main_arg9 (c : Dev nD) : V m c main_arg9 = m ((c : Thread nD τ).loc main_arg9) :=
  V_kept m c _ (by decide) (by decide) (by decide) (by decide) (by decide) (by decide) (by decide) (by decide)
theorem V_main_arg10 (c : Dev nD) : V m c main_arg10 = m ((c : Thread nD τ).loc main_arg10) :=
  V_kept m c _ (by decide) (by decide) (by decide) (by decide) (by decide) (by decide) (by decide) (by decide)
theorem V_main_arg11 (c : Dev nD) : V m c main_arg11 = m ((c : Thread nD τ).loc main_arg11) :=
  V_kept m c _ (by decide) (by decide) (by decide) (by decide) (by decide) (by decide) (by decide) (by decide)
theorem V_main_arg12 (c : Dev nD) : V m c main_arg12 = m ((c : Thread nD τ).loc main_arg12) :=
  V_kept m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved), for any proof data whose array is `V`'s and whose body leaves the block in place. The seven
    input windows one by one (the window is a literal in each so that its facts reduce). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S2048x128 := Rect.unit (s := S2048x128) ![0, 0] S2048x128.size inb_S2048x128_S2048x128_0_0
abbrev rGateW : Rect S256x512 := Rect.unit (s := S256x512) ![0, 0] S256x512.size inb_S256x512_S256x512_0_0
abbrev rGateB : Rect S1x512 := Rect.unit (s := S1x512) ![0, 0] S1x512.size inb_S1x512_S1x512_0_0
abbrev rOutW : Rect S128x128 := Rect.unit (s := S128x128) ![0, 0] S128x128.size inb_S128x128_S128x128_0_0
abbrev rOutB : Rect S1x128 := Rect.unit (s := S1x128) ![0, 0] S1x128.size inb_S1x128_S1x128_0_0

/-! ## What the body leaves in each output window's buffer -/

/-- The output rows' buffer after the body: one whole store of the projected new hidden rows plus the output bias. -/
def outY (x h cs : Vec F S2048x128 .f32) (w : Vec F S256x512 .bf16) (b : Vec F S1x512 .f32) (wy : Vec F S128x128 .bf16)
    (by' : Vec F S1x128 .f32) : Vec F S2048x128 .f32 :=
  View.canon [⟨rRows, k0_pay4 (View.ld x rRows) (View.ld h rRows) (View.ld cs rRows) (View.ld w rGateW) (View.ld b rGateB)
    (View.ld wy rOutW) (View.ld by' rOutB)⟩]

/-- The new hidden rows' buffer after the body: one whole store of output gate × tanh of the new cell rows. -/
def outH (x h cs : Vec F S2048x128 .f32) (w : Vec F S256x512 .bf16) (b : Vec F S1x512 .f32) : Vec F S2048x128 .f32 :=
  View.canon [⟨rRows, k0_pay3 (View.ld x rRows) (View.ld h rRows) (View.ld cs rRows) (View.ld w rGateW) (View.ld b rGateB)⟩]

/-- The new cell rows' buffer after the body: one whole store of forget gate × cell + input gate × candidate. -/
def outC (x h cs : Vec F S2048x128 .f32) (w : Vec F S256x512 .bf16) (b : Vec F S1x512 .f32) : Vec F S2048x128 .f32 :=
  View.canon [⟨rRows, k0_pay2 (View.ld x rRows) (View.ld h rRows) (View.ld cs rRows) (View.ld w rGateW) (View.ld b rGateB)⟩]

/-- One whole store covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The kernel body on whole staging memrefs — the seven inputs' at read contents, the three outputs' at anything — runs
    to the continuation holding the inputs' as they were and each output's at its function of the inputs'. -/
theorem body_triple (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S256x512 .bf16) (harg4 : arg4.IsWhole)
    (arg5 : Memref sig .tc .vmem S1x512 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x128 .f32) (harg9 : arg9.IsWhole) (arg10 : Memref sig .tc .vmem S2048x128 .f32) (harg10 : arg10.IsWhole)
    (x0 x1 x2 : Vec F S2048x128 .f32) (x3 : Vec F S256x512 .bf16) (x4 : Vec F S1x512 .f32) (x5 : Vec F S128x128 .bf16)
    (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outY x0 x1 x2 x3 x4 x5 x6)
            ∗ owns (c : Thread nD τ) arg9 fullShare (outH x0 x1 x2 x3 x4)
            ∗ owns (c : Thread nD τ) arg10 fullShare (outC x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_rows _)
  isplitl [H8]
  · iexists _; isplitr
    swap; · iexact H8
    ipureintro
    try dsimp only
    exact View.read_writes_eq_canon _ _ _ (cover_rows _)
  iexists _; isplitr
  swap; · iexact H9
  ipureintro
  try dsimp only
  exact View.read_writes_eq_canon _ _ _ (cover_rows _)

/-! ## The pipeline's proof data -/

/-- The proof data of the one pipeline on core `c`: the arrays as the region finds them; after the body at point `t`
    each input's buffer at its block and each output's at its function of the input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (iblk m c 0 t) (iblk m c 1 t) (iblk m c 2 t) (iblk m c 3 t) (iblk m c 4 t) (iblk m c 5 t) (iblk m c 6 t)
    | ⟨8, _⟩ => outH (iblk m c 0 t) (iblk m c 1 t) (iblk m c 2 t) (iblk m c 3 t) (iblk m c 4 t)
    | ⟨9, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outY (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t
    = outH (iblk m c 0 t) (iblk m c 1 t) (iblk m c 2 t) (iblk m c 3 t) (iblk m c 4 t) := by dsimp only [dats]
theorem after9 (c : Dev nD) (t : Fin cfg0.N) : (dats m 0 c).after 9 t
    = outC (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the three result arrays NAMED (each at what the 64 write-backs leave) and the thirteen arguments as
    launched: x, the hidden state and the cell state are staged inputs, which a region never changes; the other ten are
    no window's array, and no host operation writes an argument. -/
theorem run_named : θ_run defs (onTc (τ := τ) (main (F := F))) ⟨m, fun _ => 0, ρ⟩ (fun r => ∀ c : Dev nD,
      r.2.mem ((c.tc : Thread nD τ).loc main_v8_0) = (dats m 0 c).arrAt 7 cfg0.N
      ∧ r.2.mem ((c.tc : Thread nD τ).loc main_v8_1) = (dats m 0 c).arrAt 8 cfg0.N
      ∧ r.2.mem ((c.tc : Thread nD τ).loc main_v8_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

/-- The frame claim's post, at any `F`: the run with the results forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2.2.2) (run_named m ρ)

end Cert.Kernel.Cell

end
-- ==== Proof.CellFrameIdeal.lean ====
/-
  The LSTM cell's program runs to its end, faults nowhere and leaves its thirteen argument arrays as they were; and
  what its three result arrays hold afterwards is named.

  @main first builds, on the host, the fused gate weights (the four gate matrices stacked, transposed, narrowed) the
  fused gate bias (the four biases stacked, as one row), the output weights (transposed, narrowed) and the output bias
  (as one row); it writes none of its arguments. The region then walks 64 grid points; at point t the body is handed
  rows 2048·t … 2048·t + 2047 of x, of the hidden state and of the cell state, and the four small arrays whole, and it
  stores three whole 2048 × 128 blocks: the output rows, the new hidden rows and the new cell rows. Each stored block
  is ONE pure function of the seven blocks read, so the proof data are exact: after point t an input's staging buffer
  still holds its block and each output's holds that function of the input blocks. The region needs nothing but its
  staging buffers, so its invariant is the class's (the scoped rest and the generator register, untouched).
-/
import proofs.«157820_j57844619543162_1_alg».proof.Proof.Gen.KernelIdeal.Launch
import proofs.«157820_j57844619543162_1_alg».proof.Proof.Gen.KernelIdeal.Skeleton
import proofs.«157820_j57844619543162_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the eight host operations. -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight the host operations write is found by the region as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_kept m c _ (by decide) (by decide) (by decide) (by decide) (by decide) (by decide) (by decide) (by decide)
theorem V_main_arg1 (c : Dev nD) : V m c main_arg1 = m ((c : Thread nD τ).loc main_arg1) :=
  V_kept m c _ (by decide) (by decide) (by decide) (by decide) (by decide) (by decide) (by decide) (by decide)
theorem V_main_arg2 (c : Dev nD) : V m c main_arg2 = m ((c : Thread nD τ).loc main_arg2) :=
  V_kept m c _ (by decide) (by decide) (by decide) (by decide) (by decide) (by decide) (by decide) (by decide)
theorem V_main_arg3 (c : Dev nD) : V m c main_arg3 = m ((c : Thread nD τ).loc main_arg3) :=
  V_kept m c _ (by decide) (by decide) (by decide) (by decide) (by decide) (by decide) (by decide) (by decide)
theorem V_main_arg4 (c : Dev nD) : V m c main_arg4 = m ((c : Thread nD τ).loc main_arg4) :=
  V_kept m c _ (by decide) (by decide) (by decide) (by decide) (by decide) (by decide) (by decide) (by decide)
theorem V_main_arg5 (c : Dev nD) : V m c main_arg5 = m ((c : Thread nD τ).loc main_arg5) :=
  V_kept m c _ (by decide) (by decide) (by decide) (by decide) (by decide) (by decide) (by decide) (by decide)
theorem V_main_arg6 (c : Dev nD) : V m c main_arg6 = m ((c : Thread nD τ).loc main_arg6) :=
  V_kept m c _ (by decide) (by decide) (by decide) (by decide) (by decide) (by decide) (by decide) (by decide)
theorem V_main_arg7 (c : Dev nD) : V m c main_arg7 = m ((c : Thread nD τ).loc main_arg7) :=
  V_kept m c _ (by decide) (by decide) (by decide) (by decide) (by decide) (by decide) (by decide) (by decide)
theorem V_main_arg8 (c : Dev nD) : V m c main_arg8 = m ((c : Thread nD τ).loc main_arg8) :=
  V_kept m c _ (by decide) (by decide) (by decide) (by decide) (by decide) (by decide) (by decide) (by decide)
theorem V_main_arg9 (c : Dev nD) : V m c main_arg9 = m ((c : Thread nD τ).loc main_arg9) :=
  V_kept m c _ (by decide) (by decide) (by decide) (by decide) (by decide) (by decide) (by decide) (by decide)
theorem V_main_arg10 (c : Dev nD) : V m c main_arg10 = m ((c : Thread nD τ).loc main_arg10) :=
  V_kept m c _ (by decide) (by decide) (by decide) (by decide) (by decide) (by decide) (by decide) (by decide)
theorem V_main_arg11 (c : Dev nD) : V m c main_arg11 = m ((c : Thread nD τ).loc main_arg11) :=
  V_kept m c _ (by decide) (by decide) (by decide) (by decide) (by decide) (by decide) (by decide) (by decide)
theorem V_main_arg12 (c : Dev nD) : V m c main_arg12 = m ((c : Thread nD τ).loc main_arg12) :=
  V_kept m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved), for any proof data whose array is `V`'s and whose body leaves the block in place. The seven
    input windows one by one (the window is a literal in each so that its facts reduce). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S2048x128 := Rect.unit (s := S2048x128) ![0, 0] S2048x128.size inb_S2048x128_S2048x128_0_0
abbrev rGateW : Rect S256x512 := Rect.unit (s := S256x512) ![0, 0] S256x512.size inb_S256x512_S256x512_0_0
abbrev rGateB : Rect S1x512 := Rect.unit (s := S1x512) ![0, 0] S1x512.size inb_S1x512_S1x512_0_0
abbrev rOutW : Rect S128x128 := Rect.unit (s := S128x128) ![0, 0] S128x128.size inb_S128x128_S128x128_0_0
abbrev rOutB : Rect S1x128 := Rect.unit (s := S1x128) ![0, 0] S1x128.size inb_S1x128_S1x128_0_0

/-! ## What the body leaves in each output window's buffer -/

/-- The output rows' buffer after the body: one whole store of the projected new hidden rows plus the output bias. -/
def outY (x h cs : Vec F S2048x128 .f32) (w : Vec F S256x512 .bf16) (b : Vec F S1x512 .f32) (wy : Vec F S128x128 .bf16)
    (by' : Vec F S1x128 .f32) : Vec F S2048x128 .f32 :=
  View.canon [⟨rRows, k0_pay4 (View.ld x rRows) (View.ld h rRows) (View.ld cs rRows) (View.ld w rGateW) (View.ld b rGateB)
    (View.ld wy rOutW) (View.ld by' rOutB)⟩]

/-- The new hidden rows' buffer after the body: one whole store of output gate × tanh of the new cell rows. -/
def outH (x h cs : Vec F S2048x128 .f32) (w : Vec F S256x512 .bf16) (b : Vec F S1x512 .f32) : Vec F S2048x128 .f32 :=
  View.canon [⟨rRows, k0_pay3 (View.ld x rRows) (View.ld h rRows) (View.ld cs rRows) (View.ld w rGateW) (View.ld b rGateB)⟩]

/-- The new cell rows' buffer after the body: one whole store of forget gate × cell + input gate × candidate. -/
def outC (x h cs : Vec F S2048x128 .f32) (w : Vec F S256x512 .bf16) (b : Vec F S1x512 .f32) : Vec F S2048x128 .f32 :=
  View.canon [⟨rRows, k0_pay2 (View.ld x rRows) (View.ld h rRows) (View.ld cs rRows) (View.ld w rGateW) (View.ld b rGateB)⟩]

/-- One whole store covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The kernel body on whole staging memrefs — the seven inputs' at read contents, the three outputs' at anything — runs
    to the continuation holding the inputs' as they were and each output's at its function of the inputs'. -/
theorem body_triple (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S256x512 .bf16) (harg4 : arg4.IsWhole)
    (arg5 : Memref sig .tc .vmem S1x512 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x128 .f32) (harg9 : arg9.IsWhole) (arg10 : Memref sig .tc .vmem S2048x128 .f32) (harg10 : arg10.IsWhole)
    (x0 x1 x2 : Vec F S2048x128 .f32) (x3 : Vec F S256x512 .bf16) (x4 : Vec F S1x512 .f32) (x5 : Vec F S128x128 .bf16)
    (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outY x0 x1 x2 x3 x4 x5 x6)
            ∗ owns (c : Thread nD τ) arg9 fullShare (outH x0 x1 x2 x3 x4)
            ∗ owns (c : Thread nD τ) arg10 fullShare (outC x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_rows _)
  isplitl [H8]
  · iexists _; isplitr
    swap; · iexact H8
    ipureintro
    try dsimp only
    exact View.read_writes_eq_canon _ _ _ (cover_rows _)
  iexists _; isplitr
  swap; · iexact H9
  ipureintro
  try dsimp only
  exact View.read_writes_eq_canon _ _ _ (cover_rows _)

/-! ## The pipeline's proof data -/

/-- The proof data of the one pipeline on core `c`: the arrays as the region finds them; after the body at point `t`
    each input's buffer at its block and each output's at its function of the input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (iblk m c 0 t) (iblk m c 1 t) (iblk m c 2 t) (iblk m c 3 t) (iblk m c 4 t) (iblk m c 5 t) (iblk m c 6 t)
    | ⟨8, _⟩ => outH (iblk m c 0 t) (iblk m c 1 t) (iblk m c 2 t) (iblk m c 3 t) (iblk m c 4 t)
    | ⟨9, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outY (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t
    = outH (iblk m c 0 t) (iblk m c 1 t) (iblk m c 2 t) (iblk m c 3 t) (iblk m c 4 t) := by dsimp only [dats]
theorem after9 (c : Dev nD) (t : Fin cfg0.N) : (dats m 0 c).after 9 t
    = outC (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the three result arrays NAMED (each at what the 64 write-backs leave) and the thirteen arguments as
    launched: x, the hidden state and the cell state are staged inputs, which a region never changes; the other ten are
    no window's array, and no host operation writes an argument. -/
theorem run_named : θ_run defs (onTc (τ := τ) (main (F := F))) ⟨m, fun _ => 0, ρ⟩ (fun r => ∀ c : Dev nD,
      r.2.mem ((c.tc : Thread nD τ).loc main_v8_0) = (dats m 0 c).arrAt 7 cfg0.N
      ∧ r.2.mem ((c.tc : Thread nD τ).loc main_v8_1) = (dats m 0 c).arrAt 8 cfg0.N
      ∧ r.2.mem ((c.tc : Thread nD τ).loc main_v8_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

/-- The frame claim's post, at any `F`: the run with the results forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2.2.2) (run_named m ρ)

end Cert.KernelIdeal.Cell

end
-- ==== Proof.CellRows.lean ====
/-
  Row by row, the cell kernel's body computes what the reference computes.

  The body is handed 2048 consecutive rows of x, of the hidden state and of the cell state (rows r0 … r0 + 2047), and the
  four small arrays whole. Every quantity of an LSTM step at row r depends on row r of the three states only:
    gates(r, n)  = Σ_k [x | h](r, k) · W4ᵀ(k, n) + b4(n)            (n < 512: input, forget, output, candidate)
    c'(r, j)     = σ(gates(r, 128 + j)) · c(r, j) + σ(gates(r, j)) · tanh(gates(r, 384 + j))
    h'(r, j)     = σ(gates(r, 256 + j)) · tanh(c'(r, j))
    y(r, j)      = Σ_k h'(r, k) · W_yᵀ(k, j) + b_y(j)
  so the body's value at row p of its block is the reference's value at row r0 + p, at every extended real: the two
  texts apply the same operations in the same order (the kernel's one-operation logistic IS 1 / (1 + e^(−x)), the
  reference's spelling; a change of float format is the identity), the block product into a zero accumulator is the
  reference's sum over the contracted axis, and a row of the joined block [x | h] is the row of the joined arrays.
  Nothing here needs finiteness.
-/
import proofs.«157820_j57844619543162_1_alg».proof.Proof.Gen.KernelIdeal.Skeleton
import proofs.«157820_j57844619543162_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.CellRows

open Idealize.ShloMosaic Idealize.ShloMosaic.ValueIdx
open Cert.KernelIdeal Cert.KernelIdeal.Gen
open Cert.ReferenceIdeal.Read

/-- The word the reference writes for the numerator and the summand of its sigmoid is the number one. -/
theorem one_word : Ideal.ofBits .f32 0x3F800000#32 = 1 := by
  simp [Ideal.ofBits, Ideal.ieee, -EReal.coe_mul]; norm_num

/-! ## The kernel's two block products as sums over the contracted axis -/

theorem gate_lhs_row (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem gate_lhs_col (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem gate_rhs_row (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem gate_rhs_col (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The gate product of a block: entry (p, n) is Σ_k L(p, k) · R(k, n). -/
theorem gate_product (L : FVec Ideal S2048x256 .bf16) (R : FVec Ideal S256x512 .bf16) (p : Fin 2048) (n : Fin 512) :
    matmul dot_S2048x256_S256x512_S2048x512_1_0_0_1_n_n none L R (constant S2048x512 .f32 0x00000000#32) (ix2 p n)
      = ∑ k : Fin 256, L (ix2 p k) * R (ix2 k n) := by
  unfold matmul
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p n) ((contrEquiv1 dot_S2048x256_S256x512_S2048x512_1_0_0_1_n_n 256 rfl rfl).symm k) = ix2 p k := funext fun a => Fin.ext (by
    match a with
    | ⟨0, _⟩ => exact gate_lhs_row _ _
    | ⟨1, _⟩ => exact (gate_lhs_col _ _).trans hk)
  have er : dot_S2048x256_S256x512_S2048x512_1_0_0_1_n_n.rhsIdx (ix2 p n) ((contrEquiv1 dot_S2048x256_S256x512_S2048x512_1_0_0_1_n_n 256 rfl rfl).symm k) = ix2 k n := funext fun a => Fin.ext (by
    match a with
    | ⟨0, _⟩ => exact (gate_rhs_row _ _).trans hk
    | ⟨1, _⟩ => exact gate_rhs_col _ _)
  rw [el, er]

theorem out_lhs_row (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem out_lhs_col (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem out_rhs_row (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem out_rhs_col (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The output product of a block: entry (p, j) is Σ_k L(p, k) · R(k, j). -/
theorem out_product (L : FVec Ideal S2048x128 .bf16) (R : FVec Ideal S128x128 .bf16) (p : Fin 2048) (j : Fin 128) :
    matmul dot_S2048x128_S128x128_S2048x128_1_0_0_1_n_n none L R (constant S2048x128 .f32 0x00000000#32) (ix2 p j)
      = ∑ k : Fin 128, L (ix2 p k) * R (ix2 k j) := by
  unfold matmul
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p j) ((contrEquiv1 dot_S2048x128_S128x128_S2048x128_1_0_0_1_n_n 128 rfl rfl).symm k) = ix2 p k := funext fun a => Fin.ext (by
    match a with
    | ⟨0, _⟩ => exact out_lhs_row _ _
    | ⟨1, _⟩ => exact (out_lhs_col _ _).trans hk)
  have er : dot_S2048x128_S128x128_S2048x128_1_0_0_1_n_n.rhsIdx (ix2 p j) ((contrEquiv1 dot_S2048x128_S128x128_S2048x128_1_0_0_1_n_n 128 rfl rfl).symm k) = ix2 k j := funext fun a => Fin.ext (by
    match a with
    | ⟨0, _⟩ => exact (out_rhs_row _ _).trans hk
    | ⟨1, _⟩ => exact out_rhs_col _ _)
  rw [el, er]

section Gates
variable (X H C : (⟨Cert.ReferenceIdeal.S131072x128, .f32⟩ : BufTy).Contents (Elt Ideal))
  (Wi Wf Wo Wg : (⟨Cert.ReferenceIdeal.S128x256, .f32⟩ : BufTy).Contents (Elt Ideal))
  (bi bf bo bg : (⟨Cert.ReferenceIdeal.S128, .f32⟩ : BufTy).Contents (Elt Ideal))
variable (xb hb cb : Vec Ideal S2048x128 .f32) (wb : Vec Ideal S256x512 .bf16) (bb : Vec Ideal S1x512 .f32)

/-! ## The reference's three sigmoids and its candidate, from its gates -/

/-- The reference spells a sigmoid `1 / (1 + e^(−g))` with the word 1.0; that is the kernel's one operation. -/
theorem sigmoid_spelt (g : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf g)))
      = FloatOps.logistic g := by
  show Ideal.div (Ideal.ofBits .f32 0x3F800000#32) (Ideal.ofBits .f32 0x3F800000#32 + Ideal.exp (-g)) = Ideal.logistic g
  rw [one_word]; rfl

local notation "gR" => val_main_v7 (F := Ideal) X H Wi bi Wf bf Wo bo Wg bg

theorem ref_input_gate (i : Cert.ReferenceIdeal.S131072x128.Idx) :
    val_main_v17 (F := Ideal) X H Wi bi Wf bf Wo bo Wg bg i = FloatOps.logistic (F := Ideal) (φ := .f32) (gR (idx_main_v8 i)) := by
  rw [val_main_v17_apply, val_main_v16_apply, val_main_cst_0_apply, val_main_v15_apply, val_main_v14_apply, val_main_cst_apply,
    val_main_v13_apply, val_main_v12_apply, val_main_v8_apply]
  exact sigmoid_spelt _
theorem ref_forget_gate (i : Cert.ReferenceIdeal.S131072x128.Idx) :
    val_main_v23 (F := Ideal) X H Wi bi Wf bf Wo bo Wg bg i = FloatOps.logistic (F := Ideal) (φ := .f32) (gR (idx_main_v9 i)) := by
  rw [val_main_v23_apply, val_main_v22_apply, val_main_cst_2_apply, val_main_v21_apply, val_main_v20_apply, val_main_cst_1_apply,
    val_main_v19_apply, val_main_v18_apply, val_main_v9_apply]
  exact sigmoid_spelt _
theorem ref_output_gate (i : Cert.ReferenceIdeal.S131072x128.Idx) :
    val_main_v29 (F := Ideal) X H Wi bi Wf bf Wo bo Wg bg i = FloatOps.logistic (F := Ideal) (φ := .f32) (gR (idx_main_v10 i)) := by
  rw [val_main_v29_apply, val_main_v28_apply, val_main_cst_4_apply, val_main_v27_apply, val_main_v26_apply, val_main_cst_3_apply,
    val_main_v25_apply, val_main_v24_apply, val_main_v10_apply]
  exact sigmoid_spelt _
theorem ref_candidate (i : Cert.ReferenceIdeal.S131072x128.Idx) :
    val_main_v30 (F := Ideal) X H Wi bi Wf bf Wo bo Wg bg i = FloatOps.tanh (F := Ideal) (φ := .f32) (gR (idx_main_v11 i)) := by
  rw [val_main_v30_apply, val_main_v11_apply]
  rfl

/-! ## The kernel's new cell, new hidden and output rows, from its gates -/

local notation "gK" => k0_pay1 xb hb wb bb

theorem ker_cell (p : Fin 2048) (j : Fin 128) :
    k0_pay2 xb hb cb wb bb (ix2 p j)
      = FloatOps.logistic (gK (ix2 p (⟨128 + j.val, by have := j.isLt; omega⟩ : Fin 512))) * cb (ix2 p j)
        + FloatOps.logistic (gK (ix2 p (⟨j.val, by have := j.isLt; omega⟩ : Fin 512)))
          * FloatOps.tanh (gK (ix2 p (⟨384 + j.val, by have := j.isLt; omega⟩ : Fin 512))) := by
  simp only [k0_pay2, addf_apply, mulf_apply, logistic, tanh]
  rw [slice2_axis1_apply 128 gK _ p j ⟨128 + j.val, by have := j.isLt; omega⟩ rfl,
    slice2_axis1_apply 0 gK _ p j ⟨j.val, by have := j.isLt; omega⟩ (Nat.zero_add _).symm,
    slice2_axis1_apply 384 gK _ p j ⟨384 + j.val, by have := j.isLt; omega⟩ rfl]

theorem ker_hidden (p : Fin 2048) (j : Fin 128) :
    k0_pay3 xb hb cb wb bb (ix2 p j)
      = FloatOps.logistic (gK (ix2 p (⟨256 + j.val, by have := j.isLt; omega⟩ : Fin 512)))
          * FloatOps.tanh (k0_pay2 xb hb cb wb bb (ix2 p j)) := by
  simp only [k0_pay3, mulf_apply, logistic, tanh]
  rw [slice2_axis1_apply 256 gK _ p j ⟨256 + j.val, by have := j.isLt; omega⟩ rfl]

end Gates

/-! ## A block of rows against the whole arrays -/

/-- Row `p` of the block that starts at row `r0`. -/
abbrev row (r0 : Nat) (hr0 : r0 + 2048 ≤ 131072) (p : Fin 2048) : Fin 131072 := ⟨r0 + p.val, by have := p.isLt; omega⟩

section
variable (r0 : Nat) (hr0 : r0 + 2048 ≤ 131072)
variable (X H C : (⟨Cert.ReferenceIdeal.S131072x128, .f32⟩ : BufTy).Contents (Elt Ideal))
  (Wi Wf Wo Wg : (⟨Cert.ReferenceIdeal.S128x256, .f32⟩ : BufTy).Contents (Elt Ideal))
  (bi bf bo bg : (⟨Cert.ReferenceIdeal.S128, .f32⟩ : BufTy).Contents (Elt Ideal))
  (Wy : (⟨Cert.ReferenceIdeal.S128x128, .f32⟩ : BufTy).Contents (Elt Ideal)) (bY : (⟨Cert.ReferenceIdeal.S128, .f32⟩ : BufTy).Contents (Elt Ideal))
variable (xb hb cb : Vec Ideal S2048x128 .f32) (wb : Vec Ideal S256x512 .bf16) (bb : Vec Ideal S1x512 .f32)
  (wyb : Vec Ideal S128x128 .bf16) (byb : Vec Ideal S1x128 .f32)

/-- The joined block [x | h] at (p, k) is the joined arrays at (r0 + p, k): left of column 128 both read x, right of it
    both read the hidden state 128 columns back. -/
theorem joined_rows
    (hx : ∀ (p : Fin 2048) (k : Fin 128), xb (ix2 p k) = X (ix2 (row r0 hr0 p) k))
    (hh : ∀ (p : Fin 2048) (k : Fin 128), hb (ix2 p k) = H (ix2 (row r0 hr0 p) k))
    (p : Fin 2048) (k : Fin 256) :
    concatenate S2048x256 1 [⟨S2048x128, xb⟩, ⟨S2048x128, hb⟩] concatenates_S2048x128_S2048x128_S2048x256_d1 (ix2 p k)
      = val_main_v0 (F := Ideal) X H (ix2 (row r0 hr0 p) k) := by
  unfold val_main_v0
  by_cases hk : k.val < 128
  · rw [concatenate_pair_apply_left 1 xb hb _ (ix2 p k) rfl (ix2 p ⟨k.val, hk⟩) (fun b => match b with
        | ⟨0, _⟩ => rfl
        | ⟨1, _⟩ => rfl),
      concatenate_pair_apply_left 1 X H _ (ix2 (row r0 hr0 p) k) rfl (ix2 (row r0 hr0 p) ⟨k.val, hk⟩) (fun b => match b with
        | ⟨0, _⟩ => rfl
        | ⟨1, _⟩ => rfl)]
    exact hx p ⟨k.val, hk⟩
  · have hk' : k.val - 128 < 128 := by have := k.isLt; omega
    rw [concatenate_pair_apply_right 1 xb hb _ (ix2 p k) rfl rfl (ix2 p ⟨k.val - 128, hk'⟩) (fun b hb => match b, hb with
        | ⟨0, _⟩, _ => rfl
        | ⟨1, _⟩, hb => absurd rfl hb) (by show k.val - 128 + 128 = k.val; omega),
      concatenate_pair_apply_right 1 X H _ (ix2 (row r0 hr0 p) k) rfl rfl (ix2 (row r0 hr0 p) ⟨k.val - 128, hk'⟩) (fun b hb => match b, hb with
        | ⟨0, _⟩, _ => rfl
        | ⟨1, _⟩, hb => absurd rfl hb) (by show k.val - 128 + 128 = k.val; omega)]
    exact hh p ⟨k.val - 128, hk'⟩

/-- The gates at row p of the block are the reference's gates at row r0 + p. -/
theorem gates_rows
    (hx : ∀ (p : Fin 2048) (k : Fin 128), xb (ix2 p k) = X (ix2 (row r0 hr0 p) k))
    (hh : ∀ (p : Fin 2048) (k : Fin 128), hb (ix2 p k) = H (ix2 (row r0 hr0 p) k))
    (hw : ∀ (k : Fin 256) (n : Fin 512), wb (ix2 k n) = val_main_v3 (F := Ideal) Wi Wf Wo Wg (ix2 k n))
    (hbias : ∀ n : Fin 512, bb (ix2 (0 : Fin 1) n) = val_main_v2 (F := Ideal) bi bf bo bg (ix1 n))
    (p : Fin 2048) (n : Fin 512) :
    k0_pay1 xb hb wb bb (ix2 p n)
      = val_main_v7 (F := Ideal) X H Wi bi Wf bf Wo bo Wg bg (ix2 (row r0 hr0 p) n) := by
  rw [Cert.ReferenceIdeal.Read.val_main_v7_apply, Cert.ReferenceIdeal.Read.val_main_v4_apply, Cert.ReferenceIdeal.Read.val_main_v6_apply, Cert.ReferenceIdeal.Read.val_main_v5_apply]
  simp only [k0_pay1]
  rw [addf_apply, gate_product, broadcastTo_1b_ab_apply]
  simp only [shapeCast_self]
  refine congrArg₂ (· + ·) (Finset.sum_congr rfl fun k _ => ?_) ?_
  · have el : Cert.ReferenceIdeal.Read.lidx_main_v4 (ix2 (row r0 hr0 p) n) k = ix2 (row r0 hr0 p) k := funext fun a => Fin.ext (by
      match a with
      | ⟨0, _⟩ => rfl
      | ⟨1, _⟩ => rfl)
    have er : Cert.ReferenceIdeal.Read.ridx_main_v4 (ix2 (row r0 hr0 p) n) k = ix2 k n := funext fun a => Fin.ext (by
      match a with
      | ⟨0, _⟩ => rfl
      | ⟨1, _⟩ => rfl)
    rw [truncf_apply, hw, joined_rows r0 hr0 X H xb hb hx hh, el, er]
  · have eb : Cert.ReferenceIdeal.Read.idx_main_v5 (Cert.ReferenceIdeal.Read.idx_main_v6 (ix2 (row r0 hr0 p) n)) = ix1 n := funext fun a => Fin.ext (by
      match a with
      | ⟨0, _⟩ => rfl)
    rw [hbias, eb]

/-! ## Row by row -/

section Rows
variable (hx : ∀ (p : Fin 2048) (k : Fin 128), xb (ix2 p k) = X (ix2 (row r0 hr0 p) k))
  (hh : ∀ (p : Fin 2048) (k : Fin 128), hb (ix2 p k) = H (ix2 (row r0 hr0 p) k))
  (hc : ∀ (p : Fin 2048) (k : Fin 128), cb (ix2 p k) = C (ix2 (row r0 hr0 p) k))
  (hw : ∀ (k : Fin 256) (n : Fin 512), wb (ix2 k n) = val_main_v3 (F := Ideal) Wi Wf Wo Wg (ix2 k n))
  (hbias : ∀ n : Fin 512, bb (ix2 (0 : Fin 1) n) = val_main_v2 (F := Ideal) bi bf bo bg (ix1 n))
  (hwy : ∀ (k j : Fin 128), wyb (ix2 k j) = val_main_v36 (F := Ideal) Wy (ix2 k j))
  (hby : ∀ j : Fin 128, byb (ix2 (0 : Fin 1) j) = bY (ix1 j))
include hx hh hc hw hbias

/-- The new cell rows: row p of the block is the reference's row r0 + p. -/
theorem cell_rows (p : Fin 2048) (j : Fin 128) :
    k0_pay2 xb hb cb wb bb (ix2 p j)
      = val_main_v33 (F := Ideal) X H C Wi bi Wf bf Wo bo Wg bg (ix2 (row r0 hr0 p) j) := by
  have hj := j.isLt
  have e8 : idx_main_v8 (ix2 (row r0 hr0 p) j) = ix2 (row r0 hr0 p) (⟨j.val, by omega⟩ : Fin 512) := funext fun a => Fin.ext (by
    match a with
    | ⟨0, _⟩ => rfl
    | ⟨1, _⟩ => rfl)
  have e9 : idx_main_v9 (ix2 (row r0 hr0 p) j) = ix2 (row r0 hr0 p) (⟨128 + j.val, by omega⟩ : Fin 512) := funext fun a => Fin.ext (by
    match a with
    | ⟨0, _⟩ => rfl
    | ⟨1, _⟩ => rfl)
  have e11 : idx_main_v11 (ix2 (row r0 hr0 p) j) = ix2 (row r0 hr0 p) (⟨384 + j.val, by omega⟩ : Fin 512) := funext fun a => Fin.ext (by
    match a with
    | ⟨0, _⟩ => rfl
    | ⟨1, _⟩ => rfl)
  rw [val_main_v33_apply, val_main_v31_apply, val_main_v32_apply, ref_forget_gate, ref_input_gate, ref_candidate, e8, e9, e11,
    ← gates_rows r0 hr0 X H Wi Wf Wo Wg bi bf bo bg xb hb wb bb hx hh hw hbias p ⟨j.val, by omega⟩,
    ← gates_rows r0 hr0 X H Wi Wf Wo Wg bi bf bo bg xb hb wb bb hx hh hw hbias p ⟨128 + j.val, by omega⟩,
    ← gates_rows r0 hr0 X H Wi Wf Wo Wg bi bf bo bg xb hb wb bb hx hh hw hbias p ⟨384 + j.val, by omega⟩,
    ← hc p j, ker_cell]
  rfl

/-- The new hidden rows. -/
theorem hidden_rows (p : Fin 2048) (j : Fin 128) :
    k0_pay3 xb hb cb wb bb (ix2 p j)
      = val_main_v35 (F := Ideal) X H C Wi bi Wf bf Wo bo Wg bg (ix2 (row r0 hr0 p) j) := by
  have hj := j.isLt
  have e10 : idx_main_v10 (ix2 (row r0 hr0 p) j) = ix2 (row r0 hr0 p) (⟨256 + j.val, by omega⟩ : Fin 512) := funext fun a => Fin.ext (by
    match a with
    | ⟨0, _⟩ => rfl
    | ⟨1, _⟩ => rfl)
  rw [val_main_v35_apply, val_main_v34_apply, ref_output_gate, e10,
    ← gates_rows r0 hr0 X H Wi Wf Wo Wg bi bf bo bg xb hb wb bb hx hh hw hbias p ⟨256 + j.val, by omega⟩,
    ← cell_rows r0 hr0 X H C Wi Wf Wo Wg bi bf bo bg xb hb cb wb bb hx hh hc hw hbias p j, ker_hidden]
  rfl

include hwy hby

/-- The output rows: the new hidden rows against the transposed output weights, plus the output bias. -/
theorem out_rows (p : Fin 2048) (j : Fin 128) :
    k0_pay4 xb hb cb wb bb wyb byb (ix2 p j)
      = val_main_v40 (F := Ideal) X H C Wi bi Wf bf Wo bo Wg bg Wy bY (ix2 (row r0 hr0 p) j) := by
  rw [val_main_v40_apply, val_main_v37_apply, val_main_v39_apply, val_main_v38_apply]
  simp only [k0_pay4]
  rw [addf_apply, out_product, broadcastTo_1b_ab_apply]
  simp only [shapeCast_self]
  refine congrArg₂ (· + ·) (Finset.sum_congr rfl fun k _ => ?_) ?_
  · have el : lidx_main_v37 (ix2 (row r0 hr0 p) j) k = ix2 (row r0 hr0 p) k := funext fun a => Fin.ext (by
      match a with
      | ⟨0, _⟩ => rfl
      | ⟨1, _⟩ => rfl)
    have er : ridx_main_v37 (ix2 (row r0 hr0 p) j) k = ix2 k j := funext fun a => Fin.ext (by
      match a with
      | ⟨0, _⟩ => rfl
      | ⟨1, _⟩ => rfl)
    rw [truncf_apply, hwy, hidden_rows r0 hr0 X H C Wi Wf Wo Wg bi bf bo bg xb hb cb wb bb hx hh hc hw hbias p k, el, er]
  · have eb : idx_main_v38 (idx_main_v39 (ix2 (row r0 hr0 p) j)) = ix1 j := funext fun a => Fin.ext (by
      match a with
      | ⟨0, _⟩ => rfl)
    rw [hby, eb]

end Rows

end

end Cert.CellRows

end
-- ==== Proof.CellValue.lean ====
/-
  What the cell kernel's three result arrays hold after the run, as whole-array functions of the thirteen arguments:
  the reference's own stages (its output, its new hidden state, its new cell state) of the kernel's arguments.

  Grid point t hands the body rows 2048·t … 2048·t + 2047 of x, of the hidden state and of the cell state, and the four
  host-built arrays whole: the fused gate weights are the stacked gate matrices transposed (narrowed, which changes
  nothing here), the fused gate bias the stacked biases as one row, the output weights W_y transposed, the output bias
  b_y as one row. What the point writes back is therefore rows 2048·t … of the reference's stage (the row lemmas); the
  64 blocks of 2048 rows tile the 131072 rows, the block that covers row r being block r / 2048, so each result array
  IS the reference's stage.
-/
import proofs.«157820_j57844619543162_1_alg».proof.Proof.CellFrameIdeal
import proofs.«157820_j57844619543162_1_alg».proof.Proof.CellRows
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.CellValue

open Cert.KernelIdeal Cert.KernelIdeal.Gen Cert.KernelIdeal.Cell
open Idealize.ShloMosaic Idealize.ShloMosaic.TcCoe Idealize.ShloMosaic.ValueIdx Idealize.SL.Sem Idealize.ShloMosaic.StableHlo
open Cert.ReferenceIdeal.Read Cert.CellRows

variable (m : (ℓ : Loc nD τ sig) → Buf (Elt Ideal) ℓ) (ρ : Dev nD → PrngReg)

/-! ## The grid: 64 points; block t of a row window starts at row 2048·t, the four small windows never move -/

theorem point_lt (t : Fin cfg0.N) : t.val < 64 := lt_of_lt_of_eq t.isLt N_0

theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The first row of block t lies 2048 rows before the array's end at the latest. -/
theorem block_fits (t : Fin cfg0.N) : 2048 * t.val + 2048 ≤ 131072 := by have := point_lt t; omega

/-! ## The seven input blocks at a point, read off the arguments -/

theorem x_block (c : Dev nD) (t : Fin cfg0.N) (p : Fin 2048) (k : Fin 128) :
    iblk m c 0 t (ix2 p k) = (m ((c.tc : Thread nD τ).loc main_arg0)) (ix2 (row (2048 * t.val) (block_fits t) p) k) := by
  refine Eq.trans ?_ (congrFun (V_main_arg0 m c) _)
  show V m c main_arg0 (((cfg0.win 0).blk t).view.emb (ix2 p k)) = V m c main_arg0 _
  obtain ⟨e0, e1, -⟩ := block_indices t
  refine congrArg _ (funext fun a => Fin.ext ?_)
  match a with
  | ⟨0, _⟩ => show win0_0.index t (0 : Fin 2) * 2048 + 1 * p.val = 2048 * t.val + p.val; omega
  | ⟨1, _⟩ => show win0_0.index t (1 : Fin 2) * 128 + 1 * k.val = k.val; omega

theorem h_block (c : Dev nD) (t : Fin cfg0.N) (p : Fin 2048) (k : Fin 128) :
    iblk m c 1 t (ix2 p k) = (m ((c.tc : Thread nD τ).loc main_arg1)) (ix2 (row (2048 * t.val) (block_fits t) p) k) := by
  refine Eq.trans ?_ (congrFun (V_main_arg1 m c) _)
  show V m c main_arg1 (((cfg0.win 1).blk t).view.emb (ix2 p k)) = V m c main_arg1 _
  obtain ⟨-, -, e0, e1, -⟩ := block_indices t
  refine congrArg _ (funext fun a => Fin.ext ?_)
  match a with
  | ⟨0, _⟩ => show win0_1.index t (0 : Fin 2) * 2048 + 1 * p.val = 2048 * t.val + p.val; omega
  | ⟨1, _⟩ => show win0_1.index t (1 : Fin 2) * 128 + 1 * k.val = k.val; omega

theorem c_block (c : Dev nD) (t : Fin cfg0.N) (p : Fin 2048) (k : Fin 128) :
    iblk m c 2 t (ix2 p k) = (m ((c.tc : Thread nD τ).loc main_arg2)) (ix2 (row (2048 * t.val) (block_fits t) p) k) := by
  refine Eq.trans ?_ (congrFun (V_main_arg2 m c) _)
  show V m c main_arg2 (((cfg0.win 2).blk t).view.emb (ix2 p k)) = V m c main_arg2 _
  obtain ⟨-, -, -, -, e0, e1, -⟩ := block_indices t
  refine congrArg _ (funext fun a => Fin.ext ?_)
  match a with
  | ⟨0, _⟩ => show win0_2.index t (0 : Fin 2) * 2048 + 1 * p.val = 2048 * t.val + p.val; omega
  | ⟨1, _⟩ => show win0_2.index t (1 : Fin 2) * 128 + 1 * k.val = k.val; omega

/-- The fused gate weights the region finds: the four gate matrices stacked, transposed, narrowed. -/
theorem gate_weights_found (c : Dev nD) (i : S256x512.Idx) :
    V m c main_v3 i = val_main_v3 (F := Ideal) (m ((c.tc : Thread nD τ).loc main_arg3)) (m ((c.tc : Thread nD τ).loc main_arg5)) (m ((c.tc : Thread nD τ).loc main_arg7)) (m ((c.tc : Thread nD τ).loc main_arg9)) i := by
  have e : V m c main_v3 = ((truncf (F := Ideal) .bf16 · bitsLt_bf16_f32) : (⟨S256x512, .f32⟩ : BufTy).Contents (Elt Ideal) → (⟨S256x512, .bf16⟩ : BufTy).Contents (Elt Ideal))
      (val_main_v3 (F := Ideal) (m ((c.tc : Thread nD τ).loc main_arg3)) (m ((c.tc : Thread nD τ).loc main_arg5)) (m ((c.tc : Thread nD τ).loc main_arg7)) (m ((c.tc : Thread nD τ).loc main_arg9))) := by
    dsimp only [V, hostOps0]
    after_results
    rfl
  exact congrFun e i

theorem gate_weights_block (c : Dev nD) (t : Fin cfg0.N) (k : Fin 256) (n : Fin 512) :
    iblk m c 3 t (ix2 k n) = val_main_v3 (F := Ideal) (m ((c.tc : Thread nD τ).loc main_arg3)) (m ((c.tc : Thread nD τ).loc main_arg5)) (m ((c.tc : Thread nD τ).loc main_arg7)) (m ((c.tc : Thread nD τ).loc main_arg9)) (ix2 k n) := by
  refine Eq.trans ?_ (gate_weights_found m c (ix2 k n))
  show V m c main_v3 (((cfg0.win 3).blk t).view.emb (ix2 k n)) = V m c main_v3 _
  obtain ⟨-, -, -, -, -, -, e0, e1, -⟩ := block_indices t
  refine congrArg _ (funext fun a => Fin.ext ?_)
  match a with
  | ⟨0, _⟩ => show win0_3.index t (0 : Fin 2) * 256 + 1 * k.val = k.val; omega
  | ⟨1, _⟩ => show win0_3.index t (1 : Fin 2) * 512 + 1 * n.val = n.val; omega

/-- The fused gate bias the region finds: the four biases stacked, as one row. -/
theorem gate_bias_found (c : Dev nD) :
    (V m c main_v6 : FVec Ideal S1x512 .f32) = shapeCast S1x512 (val_main_v2 (F := Ideal) (m ((c.tc : Thread nD τ).loc main_arg4)) (m ((c.tc : Thread nD τ).loc main_arg6)) (m ((c.tc : Thread nD τ).loc main_arg8)) (m ((c.tc : Thread nD τ).loc main_arg10))) shapeCasts_S512_S1x512 := by
  dsimp only [V, hostOps0]
  after_results
  rfl

theorem gate_bias_block (c : Dev nD) (t : Fin cfg0.N) (n : Fin 512) :
    iblk m c 4 t (ix2 (0 : Fin 1) n) = val_main_v2 (F := Ideal) (m ((c.tc : Thread nD τ).loc main_arg4)) (m ((c.tc : Thread nD τ).loc main_arg6)) (m ((c.tc : Thread nD τ).loc main_arg8)) (m ((c.tc : Thread nD τ).loc main_arg10)) (ix1 n) := by
  refine Eq.trans ?_ ((congrFun (gate_bias_found m c) (ix2 (0 : Fin 1) n)).trans
    (shapeCast_apply _ _ (ix2 (0 : Fin 1) n) (ix1 n) (by
      rw [Shape.rowMajor_val_two, Shape.rowMajor_val_one]; show n.val = 0 * 512 + n.val; omega)))
  show V m c main_v6 (((cfg0.win 4).blk t).view.emb (ix2 (0 : Fin 1) n)) = V m c main_v6 _
  obtain ⟨-, -, -, -, -, -, -, -, e0, e1, -⟩ := block_indices t
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * n.val = n.val; omega

/-- The output weights the region finds: W_y transposed, narrowed. -/
theorem out_weights_found (c : Dev nD) (i : S128x128.Idx) :
    V m c main_v5 i = val_main_v36 (F := Ideal) (m ((c.tc : Thread nD τ).loc main_arg11)) i := by
  have e : V m c main_v5 = ((truncf (F := Ideal) .bf16 · bitsLt_bf16_f32) : (⟨S128x128, .f32⟩ : BufTy).Contents (Elt Ideal) → (⟨S128x128, .bf16⟩ : BufTy).Contents (Elt Ideal))
      (val_main_v36 (F := Ideal) (m ((c.tc : Thread nD τ).loc main_arg11))) := by
    dsimp only [V, hostOps0]
    after_results
    rfl
  exact congrFun e i

theorem out_weights_block (c : Dev nD) (t : Fin cfg0.N) (k j : Fin 128) :
    iblk m c 5 t (ix2 k j) = val_main_v36 (F := Ideal) (m ((c.tc : Thread nD τ).loc main_arg11)) (ix2 k j) := by
  refine Eq.trans ?_ (out_weights_found m c (ix2 k j))
  show V m c main_v5 (((cfg0.win 5).blk t).view.emb (ix2 k j)) = V m c main_v5 _
  obtain ⟨-, -, -, -, -, -, -, -, -, -, e0, e1, -⟩ := block_indices t
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

/-- The output bias the region finds: b_y as one row. -/
theorem out_bias_found (c : Dev nD) :
    (V m c main_v7 : FVec Ideal S1x128 .f32) = shapeCast S1x128 (m ((c.tc : Thread nD τ).loc main_arg12)) shapeCasts_S128_S1x128 := by
  dsimp only [V, hostOps0]
  after_results
  rfl

theorem out_bias_block (c : Dev nD) (t : Fin cfg0.N) (j : Fin 128) :
    iblk m c 6 t (ix2 (0 : Fin 1) j) = (m ((c.tc : Thread nD τ).loc main_arg12)) (ix1 j) := by
  refine Eq.trans ?_ ((congrFun (out_bias_found m c) (ix2 (0 : Fin 1) j)).trans
    (shapeCast_apply _ _ (ix2 (0 : Fin 1) j) (ix1 j) (by
      rw [Shape.rowMajor_val_two, Shape.rowMajor_val_one]; show j.val = 0 * 128 + j.val; omega)))
  show V m c main_v7 (((cfg0.win 6).blk t).view.emb (ix2 (0 : Fin 1) j)) = V m c main_v7 _
  obtain ⟨-, -, -, -, -, -, -, -, -, -, -, -, e0, e1, -⟩ := block_indices t
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-! ## The reference's three stages of the kernel's arguments -/

/-- The output array the kernel must end with: the reference's output stage of the arguments. -/
abbrev outputOf (c : Dev nD) : S131072x128.Idx → EReal := val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
/-- The new hidden state. -/
abbrev hiddenOf (c : Dev nD) : S131072x128.Idx → EReal := val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
/-- The new cell state. -/
abbrev cellOf (c : Dev nD) : S131072x128.Idx → EReal := val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-! ## What point t writes back is rows 2048·t … of the stage -/

theorem whole_store : (![0, 0] : Fin 2 → Nat) = fun _ => 0 := funext fun a => by fin_cases a <;> rfl

theorem output_written (c : Dev nD) (t : Fin cfg0.N) :
    (dats m 0 c).flushed 7 t = ((cfg0.win 7).blk t).view.read (Elt Ideal) (outputOf m c) := by
  show (cfg0.win 7).cut (grid0.coords t) ((dats m 0 c).after 7 t) = _
  rw [after7]
  unfold outY
  rw [View.canon_unit_zero whole_store]
  simp only [View.ld_unit_zero (S := S2048x128) whole_store, View.ld_unit_zero (S := S256x512) whole_store,
    View.ld_unit_zero (S := S1x512) whole_store, View.ld_unit_zero (S := S128x128) whole_store,
    View.ld_unit_zero (S := S1x128) whole_store]
  funext y
  obtain ⟨p, k, rfl⟩ : ∃ (p : Fin 2048) (k : Fin 128), y = ix2 p k := ⟨y 0, y 1, eq_ix2 y⟩
  refine (out_rows (2048 * t.val) (block_fits t) _ _ _ _ _ _ _ _ _ _ _ _ _ _ _ _ _ _ _ _
    (x_block m c t) (h_block m c t) (c_block m c t) (gate_weights_block m c t) (gate_bias_block m c t)
    (out_weights_block m c t) (out_bias_block m c t) p k).trans ?_
  show outputOf m c _ = outputOf m c (((cfg0.win 7).blk t).view.emb (ix2 p k))
  obtain ⟨-, -, -, -, -, -, -, -, -, -, -, -, -, -, e0, e1, -⟩ := block_indices t
  refine congrArg _ (funext fun a => Fin.ext ?_)
  match a with
  | ⟨0, _⟩ => show 2048 * t.val + p.val = win0_7.index t (0 : Fin 2) * 2048 + 1 * p.val; omega
  | ⟨1, _⟩ => show k.val = win0_7.index t (1 : Fin 2) * 128 + 1 * k.val; omega

theorem hidden_written (c : Dev nD) (t : Fin cfg0.N) :
    (dats m 0 c).flushed 8 t = ((cfg0.win 8).blk t).view.read (Elt Ideal) (hiddenOf m c) := by
  show (cfg0.win 8).cut (grid0.coords t) ((dats m 0 c).after 8 t) = _
  rw [after8]
  unfold outH
  rw [View.canon_unit_zero whole_store]
  simp only [View.ld_unit_zero (S := S2048x128) whole_store, View.ld_unit_zero (S := S256x512) whole_store,
    View.ld_unit_zero (S := S1x512) whole_store]
  funext y
  obtain ⟨p, k, rfl⟩ : ∃ (p : Fin 2048) (k : Fin 128), y = ix2 p k := ⟨y 0, y 1, eq_ix2 y⟩
  refine (hidden_rows (2048 * t.val) (block_fits t) _ _ _ _ _ _ _ _ _ _ _ _ _ _ _ _
    (x_block m c t) (h_block m c t) (c_block m c t) (gate_weights_block m c t) (gate_bias_block m c t) p k).trans ?_
  show hiddenOf m c _ = hiddenOf m c (((cfg0.win 8).blk t).view.emb (ix2 p k))
  obtain ⟨-, -, -, -, -, -, -, -, -, -, -, -, -, -, -, -, e0, e1, -⟩ := block_indices t
  refine congrArg _ (funext fun a => Fin.ext ?_)
  match a with
  | ⟨0, _⟩ => show 2048 * t.val + p.val = win0_8.index t (0 : Fin 2) * 2048 + 1 * p.val; omega
  | ⟨1, _⟩ => show k.val = win0_8.index t (1 : Fin 2) * 128 + 1 * k.val; omega

theorem cell_written (c : Dev nD) (t : Fin cfg0.N) :
    (dats m 0 c).flushed 9 t = ((cfg0.win 9).blk t).view.read (Elt Ideal) (cellOf m c) := by
  show (cfg0.win 9).cut (grid0.coords t) ((dats m 0 c).after 9 t) = _
  rw [after9]
  unfold outC
  rw [View.canon_unit_zero whole_store]
  simp only [View.ld_unit_zero (S := S2048x128) whole_store, View.ld_unit_zero (S := S256x512) whole_store,
    View.ld_unit_zero (S := S1x512) whole_store]
  funext y
  obtain ⟨p, k, rfl⟩ : ∃ (p : Fin 2048) (k : Fin 128), y = ix2 p k := ⟨y 0, y 1, eq_ix2 y⟩
  refine (cell_rows (2048 * t.val) (block_fits t) _ _ _ _ _ _ _ _ _ _ _ _ _ _ _ _
    (x_block m c t) (h_block m c t) (c_block m c t) (gate_weights_block m c t) (gate_bias_block m c t) p k).trans ?_
  show cellOf m c _ = cellOf m c (((cfg0.win 9).blk t).view.emb (ix2 p k))
  obtain ⟨-, -, -, -, -, -, -, -, -, -, -, -, -, -, -, -, -, -, e0, e1⟩ := block_indices t
  refine congrArg _ (funext fun a => Fin.ext ?_)
  match a with
  | ⟨0, _⟩ => show 2048 * t.val + p.val = win0_9.index t (0 : Fin 2) * 2048 + 1 * p.val; omega
  | ⟨1, _⟩ => show k.val = win0_9.index t (1 : Fin 2) * 128 + 1 * k.val; omega

/-! ## The 64 blocks tile the rows -/

/-- Some point's block is block q, for every q < 64 (the grid runs the blocks in order). -/
theorem block_onto : ∀ q : Fin 64, ∃ t : Fin cfg0.N, t.val = q.val :=
  fun q => ⟨⟨q.val, lt_of_lt_of_eq q.isLt N_0.symm⟩, rfl⟩

theorem mem_out_block7 (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v8_0).slice (win0_7.rect t)).set ↔ _
  rw [View.set_slice_whole, Rect.mem_set_unit]
  exact Iff.rfl
theorem mem_out_block8 (t : Fin cfg0.N) (i : S131072x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v8_1).slice (win0_8.rect t)).set ↔ _
  rw [View.set_slice_whole, Rect.mem_set_unit]
  exact Iff.rfl
theorem mem_out_block9 (t : Fin cfg0.N) (i : S131072x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v8_2).slice (win0_9.rect t)).set ↔ _
  rw [View.set_slice_whole, Rect.mem_set_unit]
  exact Iff.rfl

theorem covered7 (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  obtain ⟨t, ht⟩ := block_onto ⟨(i 0).val / 2048, by omega⟩
  have ht' : t.val = (i 0).val / 2048 := ht
  obtain ⟨-, -, -, -, -, -, -, -, -, -, -, -, -, -, e0, e1, -⟩ := block_indices t
  refine ⟨t, flush0_7 t, ?_⟩
  rw [mem_out_block7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega
theorem covered8 (i : S131072x128.Idx) : ∃ t : Fin cfg0.N, (cfg0.win 8).flush t = true ∧ i ∈ ((cfg0.win 8).blk t).view.set := by
  have hi0 : (i 0).val < 131072 := (i 0).isLt
  have hi1 : (i 1).val < 128 := (i 1).isLt
  obtain ⟨t, ht⟩ := block_onto ⟨(i 0).val / 2048, by omega⟩
  have ht' : t.val = (i 0).val / 2048 := ht
  obtain ⟨-, -, -, -, -, -, -, -, -, -, -, -, -, -, -, -, e0, e1, -⟩ := block_indices t
  refine ⟨t, flush0_8 t, ?_⟩
  rw [mem_out_block8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 128 ≤ (i 1).val ∧ (i 1).val < win0_8.index t (1 : Fin 2) * 128 + 128; omega
theorem covered9 (i : S131072x128.Idx) : ∃ t : Fin cfg0.N, (cfg0.win 9).flush t = true ∧ i ∈ ((cfg0.win 9).blk t).view.set := by
  have hi0 : (i 0).val < 131072 := (i 0).isLt
  have hi1 : (i 1).val < 128 := (i 1).isLt
  obtain ⟨t, ht⟩ := block_onto ⟨(i 0).val / 2048, by omega⟩
  have ht' : t.val = (i 0).val / 2048 := ht
  obtain ⟨-, -, -, -, -, -, -, -, -, -, -, -, -, -, -, -, -, -, e0, e1⟩ := block_indices t
  refine ⟨t, flush0_9 t, ?_⟩
  rw [mem_out_block9]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 128 ≤ (i 1).val ∧ (i 1).val < win0_9.index t (1 : Fin 2) * 128 + 128; omega

/-! ## The three result arrays after the run -/

theorem output_final (c : Dev nD) : (dats m 0 c).arrAt 7 cfg0.N = outputOf m c :=
  (dats m 0 c).arrAt_eq_of_cover 7 (outputOf m c) (fun t _ => output_written m c t) covered7
theorem hidden_final (c : Dev nD) : (dats m 0 c).arrAt 8 cfg0.N = hiddenOf m c :=
  (dats m 0 c).arrAt_eq_of_cover 8 (hiddenOf m c) (fun t _ => hidden_written m c t) covered8
theorem cell_final (c : Dev nD) : (dats m 0 c).arrAt 9 cfg0.N = cellOf m c :=
  (dats m 0 c).arrAt_eq_of_cover 9 (cellOf m c) (fun t _ => cell_written m c t) covered9

/-- The run of the idealized kernel's program with its three results at the reference's stages of the arguments, the
    arguments as launched. -/
theorem run : θ_run defs (onTc (τ := τ) (main (F := Ideal))) ⟨m, fun _ => 0, ρ⟩ (fun r => ∀ c : Dev nD,
      r.2.mem ((c.tc : Thread nD τ).loc main_v8_0) = outputOf m c
      ∧ r.2.mem ((c.tc : Thread nD τ).loc main_v8_1) = hiddenOf m c
      ∧ r.2.mem ((c.tc : Thread nD τ).loc main_v8_2) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (output_final m c), (h c).2.1.trans (hidden_final m c),
      (h c).2.2.1.trans (cell_final m c), (h c).2.2.2⟩) (run_named m ρ)

end Cert.KernelIdeal.CellValue

end
-- ==== Proof.lean ====
/-
  One step of an LSTM cell over 131072 rows, fused into one kernel that walks 64 blocks of 2048 rows, against the plain
  array program. At the ideal instance (a float an extended real, every operation exact, a change of float format the
  identity) the two compute the same three arrays:
    gates = [x | h] · W4ᵀ + b4,  c' = σ(g_f) · c + σ(g_i) · tanh(g_g),  h' = σ(g_o) · tanh(c'),  y = h' · W_yᵀ + b_y,
  the kernel's sigmoid being the one operation whose meaning is 1 / (1 + e^(−g)), the reference's spelling of it. No
  law of arithmetic is needed beyond reading both texts at an index, so the precondition is never opened.

  The kernel's programs run to their end with the arguments unchanged (the frame modules, one text at both instances);
  the idealized kernel's three result arrays are the reference's output, new hidden state and new cell state stages of
  its arguments (the value module, over the row lemmas); the reference's run ends at the same stages of its own
  arguments, which agree with the kernel's. The idealization rewrote nothing, so there is nothing to preserve.
-/
import proofs.«157820_j57844619543162_1_alg».proof.Defs
import proofs.«157820_j57844619543162_1_alg».proof.Proof.Gen.Kernel
import proofs.«157820_j57844619543162_1_alg».proof.Proof.Gen.KernelIdeal
import proofs.«157820_j57844619543162_1_alg».proof.Proof.Gen.ReferenceIdeal
import proofs.«157820_j57844619543162_1_alg».proof.Proof.Gen.Pre_finite_inputs
import proofs.«157820_j57844619543162_1_alg».proof.Proof.Gen.ReferenceIdeal.Run
import proofs.«157820_j57844619543162_1_alg».proof.Proof.Gen.ReferenceIdeal.Read
import proofs.«157820_j57844619543162_1_alg».proof.Proof.CellFrameBits
import proofs.«157820_j57844619543162_1_alg».proof.Proof.CellFrameIdeal
import proofs.«157820_j57844619543162_1_alg».proof.Proof.CellValue

set_option maxRecDepth 16384

noncomputable section

namespace Cert.Proof

open Idealize.ShloMosaic Idealize.ShloMosaic.TcCoe Idealize.SL.Sem

theorem frame_kernel : Cert.frame_Kernel := fun m ρ _ => Cert.Kernel.Cell.frame m ρ

theorem frame_kernel_ideal : Cert.frame_KernelIdeal := fun m ρ _ => Cert.KernelIdeal.Cell.frame m ρ

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the reference's three stages of arguments that agree. -/
theorem algebraic : Cert.algebraic_KernelIdeal_ReferenceIdeal := by
  intro m ρ m' ρ' _ hagree
  refine ⟨fun c => Cert.KernelIdeal.CellValue.outputOf m c, fun c => Cert.KernelIdeal.CellValue.hiddenOf m c,
    fun c => Cert.KernelIdeal.CellValue.cellOf m c, Cert.KernelIdeal.CellValue.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12⟩ := hagree c
  refine ⟨(h c).1.trans ?_, (h c).2.1.trans ?_, (h c).2.2.1.trans ?_, (h c).2.2.2⟩
  · rw [Cert.ReferenceIdeal.Read.val_main_v40_eq, h0, h1, h2, h3, h4, h5, h6, h7, h8, h9, h10, h11, h12]
  · rw [Cert.ReferenceIdeal.Read.val_main_v35_eq, h0, h1, h2, h3, h4, h5, h6, h7, h8, h9, h10]
  · refine (Cert.ReferenceIdeal.Read.val_main_v33_eq _ _ _ _ _ _ _ _ _ _ _).trans ?_
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
